-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x128 : Shape := ⟨2, ![100000, 128]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x1 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S128 .f32) (main_arg6 : FVec F S128x1 .f32) (main_arg7 : FVec F S1 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : IVec S2x3200000 32) (main_arg1 : FVec F S100000x128 .f32) (main_arg2 : FVec F S3200000x3 .f32) (main_arg3 : FVec F S3200000x3 .f32) (main_arg4 : FVec F S128x128 .f32) (main_arg5 : FVec F S128 .f32) (main_arg6 : FVec F S128x1 .f32) (main_arg7 : FVec F S1 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x3 .f32 := Host.absf main_arg2
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S3200000x3 .f32 := Host.absf main_arg3
  let main_cst_2 : FVec F S_ .f32 := constant S_ .f32 0x7F800000#32
  let main_v10 : FVec F S3200000x3 .f32 := broadcastInDim S3200000x3 ![] bcast_S_S3200000x3 main_cst_2
  let main_v11 : IVec S3200000x3 1 := cmpf .olt main_v9 main_v10
  let main_c_3 : IVec S_ 1 := constantI S_ 1 1#1
  let main_v12 : IVec S_ 1 := (fun x v => Host.reduce IntOp.andi x v reducesTo_S3200000x3_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S2x3200000 : Shape := ⟨2, ![2, 3200000]⟩
abbrev S100000x128 : Shape := ⟨2, ![100000, 128]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000x3 : Shape := ⟨2, ![100000, 3]⟩
abbrev S3200000x1 : Shape := ⟨2, ![3200000, 1]⟩
abbrev S1x128 : Shape := ⟨2, ![1, 128]⟩
abbrev S1x1 : Shape := ⟨2, ![1, 1]⟩
abbrev S5000x128 : Shape := ⟨2, ![5000, 128]⟩
abbrev S5000x3 : Shape := ⟨2, ![5000, 3]⟩
abbrev S5000x1 : Shape := ⟨2, ![5000, 1]⟩

abbrev nBuf : Space → Nat
  | .hbm => 34
  | .vmem => 22
  | .smem => 0
  | _ => 0

abbrev bufTy : (tb : Table) → Fin (tcTables nBuf tb) → BufTy
  | .hbm, ⟨0, _⟩ => ⟨S2x3200000, .i32⟩
  | .hbm, ⟨1, _⟩ => ⟨S100000x128, .f32⟩
  | .hbm, ⟨2, _⟩ => ⟨S3200000x3, .f32⟩
  | .hbm, ⟨3, _⟩ => ⟨S3200000x3, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S_, .f32⟩
  | .hbm, ⟨19, _⟩ => ⟨S100000x3, .f32⟩
  | .hbm, ⟨20, _⟩ => ⟨S3200000x1, .i32⟩
  | .hbm, ⟨21, _⟩ => ⟨S100000x3, .f32⟩
  | .hbm, ⟨22, _⟩ => ⟨S_, .f32⟩
  | .hbm, ⟨23, _⟩ => ⟨S100000x3, .f32⟩
  | .hbm, ⟨24, _⟩ => ⟨S3200000x1, .i32⟩
  | .hbm, ⟨25, _⟩ => ⟨S100000x3, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S100000x3, .f32⟩
  | .hbm, ⟨33, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S128x128, .f32⟩
  | .local _ .vmem, ⟨7, _⟩ => ⟨S1x128, .f32⟩
  | .local _ .vmem, ⟨8, _⟩ => ⟨S128x1, .f32⟩
  | .local _ .vmem, ⟨9, _⟩ => ⟨S1x1, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S5000x3, .f32⟩
  | .local _ .vmem, ⟨15, _⟩ => ⟨S5000x3, .f32⟩
  | .local _ .vmem, ⟨16, _⟩ => ⟨S5000x3, .f32⟩
  | .local _ .vmem, ⟨17, _⟩ => ⟨S5000x3, .f32⟩
  | .local _ .vmem, ⟨18, _⟩ => ⟨S5000x3, .f32⟩
  | .local _ .vmem, ⟨19, _⟩ => ⟨S5000x3, .f32⟩
  | .local _ .vmem, ⟨20, _⟩ => ⟨S5000x3, .f32⟩
  | .local _ .vmem, ⟨21, _⟩ => ⟨S5000x3, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S5000x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S5000x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x3200000_S1x3200000_1_0 : S2x3200000.Slices ![1, 0] S1x3200000
  shapeCasts_S1x3200000_S3200000 : S1x3200000.ShapeCasts S3200000
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  broadcasts_S5000x1_S5000x3 : S5000x1.Broadcasts S5000x3
  scatter_S100000x3_S3200000x1_S3200000x3_1_0_0_1_wf : ScatterDims.WF S100000x3 S3200000x1 S3200000x3 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x3.size a ≤ S100000x3.size a
  hwx0_13 : ∀ i : grid0.Coords, EltTy.bits .f32 = 32 ∨ (Rect.block (s := S100000x3) S5000x3.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x3.size a ≤ S100000x3.size a
  hwx0_14 : ∀ i : grid0.Coords, EltTy.bits .f32 = 32 ∨ (Rect.block (s := S100000x3) S5000x3.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x3.size a ≤ S100000x3.size a
  hwx0_15 : ∀ i : grid0.Coords, EltTy.bits .f32 = 32 ∨ (Rect.block (s := S100000x3) S5000x3.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5000x3.size a ≤ S100000x3.size a
  hwx0_16 : ∀ i : grid0.Coords, EltTy.bits .f32 = 32 ∨ (Rect.block (s := S100000x3) S5000x3.size (cc0_transform_16 i) (hinb0_16 i)).WholeWords (EltTy.packing .f32)

variable [Facts₀]

def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S5000x3.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v7) S5000x3.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S5000x3.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S5000x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2x3200000 : Shape := ⟨2, ![2, 3200000]⟩
abbrev S100000x128 : Shape := ⟨2, ![100000, 128]⟩
abbrev S3200000x3 : Shape := ⟨2, ![3200000, 3]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3200000 : Shape := ⟨2, ![1, 3200000]⟩
abbrev S3200000 : Shape := ⟨1, ![3200000]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S100000x3 : Shape := ⟨2, ![100000, 3]⟩
abbrev S3200000x1 : Shape := ⟨2, ![3200000, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x128, .f32⟩
  | .hbm, ⟨2, _⟩ => ⟨S3200000x3, .f32⟩
  | .hbm, ⟨3, _⟩ => ⟨S3200000x3, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x1, .f32⟩
  | .hbm, ⟨26, _⟩ => ⟨S1x1, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x1, .f32⟩
  | .hbm, ⟨37, _⟩ => ⟨S1x1, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x1, .f32⟩
  | .hbm, ⟨48, _⟩ => ⟨S1x1, .f32⟩
  | .hbm, ⟨49, _⟩ => ⟨S100000x1, .f32⟩
  | .hbm, ⟨50, _⟩ => ⟨S100000x1, .f32⟩
  | .hbm, ⟨51, _⟩ => ⟨S_, .f32⟩
  | .hbm, ⟨52, _⟩ => ⟨S100000x3, .f32⟩
  | .hbm, ⟨53, _⟩ => ⟨S3200000x1, .i32⟩
  | .hbm, ⟨54, _⟩ => ⟨S100000x3, .f32⟩
  | .hbm, ⟨55, _⟩ => ⟨S_, .f32⟩
  | .hbm, ⟨56, _⟩ => ⟨S100000x3, .f32⟩
  | .hbm, ⟨57, _⟩ => ⟨S3200000x1, .i32⟩
  | .hbm, ⟨58, _⟩ => ⟨S100000x3, .f32⟩
  | .hbm, ⟨59, _⟩ => ⟨S100000x3, .f32⟩
  | .hbm, ⟨60, _⟩ => ⟨S100000x3, .f32⟩
  | .hbm, ⟨61, _⟩ => ⟨S100000x3, .f32⟩
  | .hbm, ⟨62, _⟩ => ⟨S100000x3, .f32⟩
  | .hbm, ⟨63, _⟩ => ⟨S100000x3, .f32⟩
  | .hbm, ⟨64, _⟩ => ⟨S100000x3, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_cst : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_cst : Ref sig .tc := ⟨.hbm, 44, rfl⟩
abbrev main_call2_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  slices_S2x3200000_S1x3200000_1_0 : S2x3200000.Slices ![1, 0] S1x3200000
  shapeCasts_S1x3200000_S3200000 : S1x3200000.ShapeCasts S3200000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  bcast_S100000x1_S100000x3_0_1 : S100000x1.BroadcastsInDim S100000x3 (![0, 1] : Fin 2 → Fin S100000x3.rank)
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S100000x3_S3200000x1_S3200000x3_1_0_0_1_wf : ScatterDims.WF S100000x3 S3200000x1 S3200000x3 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.LibColumnBroadcast.lean ====
import Idealize.ShloMosaic.Lib.Pipeline.Value
import Idealize.ShloMosaic.Lib.ValueIdx

/-!
  One column broadcast over many: an array of shape [a, 1] broadcast to [a, b] repeats its single column, so its entry
  (p, c) is the operand's entry (p, 0), whatever the column c. (The companion of the row form, where a [1, b] array
  broadcast to [a, b] reads its single row.) The extents a and b are variables.
-/

namespace Cert.Lib.ColumnBroadcast

open Idealize.ShloMosaic Idealize.ShloMosaic.ValueIdx

variable {α : Type}

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast
-- ==== Proof.NodeDecoder.lean ====
import Idealize.ShloMosaic.PureOps.Ideal.Laws
import Idealize.ShloMosaic.Lib.ValueIdx

/-!
  The node decoder as mathematics over the extended reals.

  A node's latent row x (128 entries) goes through a two-layer perceptron,
      mlp(x) = Σ_k max(Σ_d x_d · W1[d, k] + b1[k], 0) · W2[k] + b2,
  three times, with three sets of weights (called m, i and e here). With Sf and St the arrays [100000, 3] that hold,
  per node, the sums of the two edge quantities over the edges received, the two results at node n and component j are
      dv[n, j] = mlp_m(x_n) · Sf[n, j] + mlp_e(x_n),        dw[n, j] = mlp_i(x_n) · St[n, j].
  Both programs compute exactly this arrangement (the same products and sums, grouped the same way), so nothing below
  asks the inputs to be finite: only that a sum does not depend on the order of its terms.
-/

open scoped BigOperators

noncomputable section

namespace Cert.NodeDecoder

open Idealize.ShloMosaic Idealize.ShloMosaic.ValueIdx

/-- The perceptron on one latent row: a hidden layer of 128 rectified units, then one output unit. -/
def mlp (x : Fin 128 → EReal) (W1 : Fin 128 → Fin 128 → EReal) (b1 : Fin 128 → EReal) (W2 : Fin 128 → EReal)
    (b2 : EReal) : EReal :=
  (∑ k : Fin 128, max ((∑ d : Fin 128, x d * W1 d k) + b1 k) 0 * W2 k) + b2

/-- The perceptron of node `n`, from the arrays as both programs receive them: the latent matrix [100000, 128], a first
    layer [128, 128] with bias [128], a second layer [128, 1] with bias [1]. -/
def nodeMlp (X : FVec Ideal ⟨2, ![100000, 128]⟩ .f32) (W1 : FVec Ideal ⟨2, ![128, 128]⟩ .f32)
    (b1 : FVec Ideal ⟨1, ![128]⟩ .f32) (W2 : FVec Ideal ⟨2, ![128, 1]⟩ .f32) (b2 : FVec Ideal ⟨1, ![1]⟩ .f32)
    (n : Fin 100000) : EReal :=
  mlp (fun d => X (ix2 n d)) (fun d k => W1 (ix2 d k)) (fun k => b1 (ix1 k)) (fun k => W2 (ix2 k (0 : Fin 1)))
    (b2 (ix1 (0 : Fin 1)))

/-- The first result: the m-perceptron scales the node's summed edge quantity, the e-perceptron is added. -/
def dv (X : FVec Ideal ⟨2, ![100000, 128]⟩ .f32)
    (mW1 : FVec Ideal ⟨2, ![128, 128]⟩ .f32) (mb1 : FVec Ideal ⟨1, ![128]⟩ .f32)
    (mW2 : FVec Ideal ⟨2, ![128, 1]⟩ .f32) (mb2 : FVec Ideal ⟨1, ![1]⟩ .f32)
    (eW1 : FVec Ideal ⟨2, ![128, 128]⟩ .f32) (eb1 : FVec Ideal ⟨1, ![128]⟩ .f32)
    (eW2 : FVec Ideal ⟨2, ![128, 1]⟩ .f32) (eb2 : FVec Ideal ⟨1, ![1]⟩ .f32)
    (Sf : FVec Ideal ⟨2, ![100000, 3]⟩ .f32) : FVec Ideal ⟨2, ![100000, 3]⟩ .f32 := fun i =>
  nodeMlp X mW1 mb1 mW2 mb2 (i 0) * Sf i + nodeMlp X eW1 eb1 eW2 eb2 (i 0)

/-- The second result: the i-perceptron scales the node's other summed edge quantity. -/
def dw (X : FVec Ideal ⟨2, ![100000, 128]⟩ .f32)
    (iW1 : FVec Ideal ⟨2, ![128, 128]⟩ .f32) (ib1 : FVec Ideal ⟨1, ![128]⟩ .f32)
    (iW2 : FVec Ideal ⟨2, ![128, 1]⟩ .f32) (ib2 : FVec Ideal ⟨1, ![1]⟩ .f32)
    (St : FVec Ideal ⟨2, ![100000, 3]⟩ .f32) : FVec Ideal ⟨2, ![100000, 3]⟩ .f32 := fun i =>
  nodeMlp X iW1 ib1 iW2 ib2 (i 0) * St i

end Cert.NodeDecoder

end
-- ==== Proof.BlockPerceptron.lean ====
import proofs.«165260_j28217935135446_1_alg».proof.Proof.Gen.KernelIdeal.Skeleton
import proofs.«165260_j28217935135446_1_alg».proof.Proof.LibPlainDot
import proofs.«165260_j28217935135446_1_alg».proof.Proof.LibColumnBroadcast
import proofs.«165260_j28217935135446_1_alg».proof.Proof.NodeDecoder
import Idealize.ShloMosaic.Lib.ValueLayout

/-!
  The kernel's body on one block of 5000 nodes, read entry by entry over the extended reals.

  The body holds the block's latent rows x [5000, 128] and, for each of the three perceptrons, a first layer
  [128, 128], its bias as one row [1, 128], a second layer [128, 1] and its bias as one entry [1, 1]. It forms
  x · W1 (a matrix product into a zero accumulator), adds the bias row to every row, rectifies, multiplies by W2 and
  adds the bias entry: one column [5000, 1] per perceptron. Changes of number format are the identity on the extended
  reals, and a matrix product there is the plain sum over the contracted index, so row p of that column is the
  perceptron `mlp` of row p of x. The two stores then spread the columns over the three components:
      first  store, entry (p, q):  mlp_m(x_p) · f[p, q] + mlp_e(x_p),
      second store, entry (p, q):  mlp_i(x_p) · t[p, q].
-/

open scoped BigOperators

noncomputable section

namespace Cert.KernelIdeal.BlockPerceptron

open Cert.KernelIdeal Cert.KernelIdeal.Gen Cert.NodeDecoder Idealize.ShloMosaic Idealize.ShloMosaic.ValueIdx

/-- The perceptron of the block's row `p`, from the block of latent rows and one perceptron's four weight blocks. -/
def rowMlp (x : FVec Ideal S5000x128 .f32) (W1 : FVec Ideal S128x128 .f32) (b1 : FVec Ideal S1x128 .f32)
    (W2 : FVec Ideal S128x1 .f32) (b2 : FVec Ideal S1x1 .f32) (p : Fin 5000) : EReal :=
  mlp (fun d => x (ix2 p d)) (fun d k => W1 (ix2 d k)) (fun k => b1 (ix2 (0 : Fin 1) k))
    (fun k => W2 (ix2 k (0 : Fin 1))) (b2 (ix2 (0 : Fin 1) (0 : Fin 1)))

/-- A bias row [1, 128], cast to its own shape and broadcast over the 5000 rows, reads the row's entry `k`. -/
theorem bias_row_apply (b1 : FVec Ideal S1x128 .f32) (p : Fin 5000) (k : Fin 128) :
    broadcastTo S5000x128 (shapeCast S1x128 b1 shapeCasts_S1x128_S1x128) broadcasts_S1x128_S5000x128 (ix2 p k)
      = b1 (ix2 (0 : Fin 1) k) := by
  rw [shapeCast_self]
  exact broadcastTo_1b_ab_apply (a := 5000) (b := 128) b1 broadcasts_S1x128_S5000x128 p k

/-- A bias entry [1, 1], cast to its own shape and broadcast over the 5000 rows of a column, reads that entry. -/
theorem bias_entry_apply (b2 : FVec Ideal S1x1 .f32) (p : Fin 5000) :
    broadcastTo S5000x1 (shapeCast S1x1 b2 shapeCasts_S1x1_S1x1) broadcasts_S1x1_S5000x1 (ix2 p (0 : Fin 1))
      = b2 (ix2 (0 : Fin 1) (0 : Fin 1)) := by
  rw [shapeCast_self]
  exact broadcastTo_1b_ab_apply (a := 5000) (b := 1) b2 broadcasts_S1x1_S5000x1 p (0 : Fin 1)

/-- A hidden unit: entry (p, k) of max(x · W1 + bias row, 0). -/
theorem hidden_apply (x : FVec Ideal S5000x128 .bf16) (W1 : FVec Ideal S128x128 .bf16) (b1 : FVec Ideal S1x128 .f32)
    (p : Fin 5000) (k : Fin 128) :
    maximumf (addf (matmul dot_S5000x128_S128x128_S5000x128_1_0_0_1_n_n none x W1 (constant S5000x128 .f32 0x00000000#32))
        (broadcastTo S5000x128 (shapeCast S1x128 b1 shapeCasts_S1x128_S1x128) broadcasts_S1x128_S5000x128))
      (broadcast S5000x128 (Scalar.ofBits (F := Ideal) .f32 0x00000000#32)) (ix2 p k)
      = max ((∑ d : Fin 128, x (ix2 p d) * W1 (ix2 d k)) + b1 (ix2 (0 : Fin 1) k)) 0 := by
  have e1 := Cert.Lib.PlainDot.matmul_zero_apply (M := 5000) (K := 128) (N := 128)
    dot_S5000x128_S128x128_S5000x128_1_0_0_1_n_n rfl rfl rfl rfl rfl rfl none x W1 p k
  have e2 := bias_row_apply b1 p k
  show max (FloatOps.matmul dot_S5000x128_S128x128_S5000x128_1_0_0_1_n_n none x W1
        (constant (F := Ideal) ⟨2, ![5000, 128]⟩ .f32 0x00000000#32) (ix2 p k)
      + broadcastTo S5000x128 (shapeCast S1x128 b1 shapeCasts_S1x128_S1x128) broadcasts_S1x128_S5000x128 (ix2 p k))
      (Ideal.ofBits .f32 0x00000000#32) = _
  rw [e1, e2, Ideal.ofBits_zero_f32]

/-- The second matrix product of a perceptron, at row `p`: the hidden row of `p` against the one column of W2. -/
theorem output_apply (x : FVec Ideal S5000x128 .bf16) (W1 : FVec Ideal S128x128 .bf16) (b1 : FVec Ideal S1x128 .f32)
    (W2 : FVec Ideal S128x1 .bf16) (p : Fin 5000) :
    matmul dot_S5000x128_S128x1_S5000x1_1_0_0_1_n_n none
        (truncf .bf16 (maximumf (addf (matmul dot_S5000x128_S128x128_S5000x128_1_0_0_1_n_n none x W1 (constant S5000x128 .f32 0x00000000#32))
            (broadcastTo S5000x128 (shapeCast S1x128 b1 shapeCasts_S1x128_S1x128) broadcasts_S1x128_S5000x128))
          (broadcast S5000x128 (Scalar.ofBits (F := Ideal) .f32 0x00000000#32))) bitsLt_bf16_f32)
        W2 (constant S5000x1 .f32 0x00000000#32) (ix2 p (0 : Fin 1))
      = ∑ k : Fin 128, max ((∑ d : Fin 128, x (ix2 p d) * W1 (ix2 d k)) + b1 (ix2 (0 : Fin 1) k)) 0 * W2 (ix2 k (0 : Fin 1)) :=
  (Cert.Lib.PlainDot.matmul_zero_apply (M := 5000) (K := 128) (N := 1)
      dot_S5000x128_S128x1_S5000x1_1_0_0_1_n_n rfl rfl rfl rfl rfl rfl none _ W2 p (0 : Fin 1)).trans
    (Finset.sum_congr rfl fun k _ => congrArg (fun h => h * W2 (ix2 k (0 : Fin 1))) (hidden_apply x W1 b1 p k))

/-- The m-perceptron's column as the body computes it (the payload `k0_pay4`), at row `p`. -/
theorem column_m_apply (x : Vec Ideal S5000x128 .f32) (W1 : Vec Ideal S128x128 .f32) (b1 : Vec Ideal S1x128 .f32)
    (W2 : Vec Ideal S128x1 .f32) (b2 : Vec Ideal S1x1 .f32) (p : Fin 5000) :
    k0_pay4 (F := Ideal) x W1 b1 W2 b2 (ix2 p (0 : Fin 1)) = rowMlp x W1 b1 W2 b2 p := by
  unfold k0_pay4 k0_pay3 rowMlp mlp
  exact congrArg₂ (· + ·) (output_apply x W1 b1 W2 p) (bias_entry_apply b2 p)

/-- The i-perceptron's column: the body keeps its product part (`k0_pay5`) and its bias part (`k0_pay6`) apart and
    adds them when it stores. -/
theorem column_i_apply (x : Vec Ideal S5000x128 .f32) (W1 : Vec Ideal S128x128 .f32) (b1 : Vec Ideal S1x128 .f32)
    (W2 : Vec Ideal S128x1 .f32) (b2 : Vec Ideal S1x1 .f32) (p : Fin 5000) :
    addf (k0_pay5 (F := Ideal) x W1 b1 W2) (k0_pay6 (F := Ideal) b2) (ix2 p (0 : Fin 1)) = rowMlp x W1 b1 W2 b2 p := by
  unfold k0_pay5 k0_pay6 k0_pay3 rowMlp mlp
  exact congrArg₂ (· + ·) (output_apply x W1 b1 W2 p) (bias_entry_apply b2 p)

/-- A perceptron's column written out (product part plus bias part) over operands already in the narrow format, at row
    `p`: the form in which the e-perceptron stands inside the first store's payload. -/
theorem column_apply (x : FVec Ideal S5000x128 .bf16) (W1 : FVec Ideal S128x128 .bf16) (b1 : FVec Ideal S1x128 .f32)
    (W2 : FVec Ideal S128x1 .bf16) (b2 : FVec Ideal S1x1 .f32) (p : Fin 5000) :
    addf (matmul dot_S5000x128_S128x1_S5000x1_1_0_0_1_n_n none
        (truncf .bf16 (maximumf (addf (matmul dot_S5000x128_S128x128_S5000x128_1_0_0_1_n_n none x W1 (constant S5000x128 .f32 0x00000000#32))
            (broadcastTo S5000x128 (shapeCast S1x128 b1 shapeCasts_S1x128_S1x128) broadcasts_S1x128_S5000x128))
          (broadcast S5000x128 (Scalar.ofBits (F := Ideal) .f32 0x00000000#32))) bitsLt_bf16_f32)
        W2 (constant S5000x1 .f32 0x00000000#32))
      (broadcastTo S5000x1 (shapeCast S1x1 b2 shapeCasts_S1x1_S1x1) broadcasts_S1x1_S5000x1) (ix2 p (0 : Fin 1))
      = (∑ k : Fin 128, max ((∑ d : Fin 128, x (ix2 p d) * W1 (ix2 d k)) + b1 (ix2 (0 : Fin 1) k)) 0 * W2 (ix2 k (0 : Fin 1)))
        + b2 (ix2 (0 : Fin 1) (0 : Fin 1)) :=
  congrArg₂ (· + ·) (output_apply x W1 b1 W2 p) (bias_entry_apply b2 p)

/-- THE FIRST STORE at block entry (p, q): the m-perceptron of row p times the block of summed edge quantities there,
    plus the e-perceptron of row p. -/
theorem store_dv_apply (x : Vec Ideal S5000x128 .f32)
    (mW1 : Vec Ideal S128x128 .f32) (mb1 : Vec Ideal S1x128 .f32) (mW2 : Vec Ideal S128x1 .f32) (mb2 : Vec Ideal S1x1 .f32)
    (eW1 : Vec Ideal S128x128 .f32) (eb1 : Vec Ideal S1x128 .f32) (eW2 : Vec Ideal S128x1 .f32) (eb2 : Vec Ideal S1x1 .f32)
    (f : Vec Ideal S5000x3 .f32) (p : Fin 5000) (q : Fin 3) :
    k0_pay1 (F := Ideal) (k0_pay3 x) (k0_pay4 x mW1 mb1 mW2 mb2) eW1 eb1 eW2 eb2 f (ix2 p q)
      = rowMlp x mW1 mb1 mW2 mb2 p * f (ix2 p q) + rowMlp x eW1 eb1 eW2 eb2 p := by
  have h1 := (Cert.Lib.ColumnBroadcast.broadcastTo_a1_ab_apply (a := 5000) (b := 3)
    (k0_pay4 (F := Ideal) x mW1 mb1 mW2 mb2) broadcasts_S5000x1_S5000x3 p q).trans (column_m_apply x mW1 mb1 mW2 mb2 p)
  have h2 : shapeCast S5000x3 f shapeCasts_S5000x3_S5000x3 (ix2 p q) = f (ix2 p q) :=
    congrFun (shapeCast_self f shapeCasts_S5000x3_S5000x3) (ix2 p q)
  have h3 := (Cert.Lib.ColumnBroadcast.broadcastTo_a1_ab_apply (a := 5000) (b := 3) _ broadcasts_S5000x1_S5000x3 p q).trans
    (column_apply (k0_pay3 (F := Ideal) x) (truncf .bf16 eW1 bitsLt_bf16_f32) eb1 (truncf .bf16 eW2 bitsLt_bf16_f32) eb2 p)
  unfold k0_pay1
  exact congrArg₂ (· + ·) (congrArg₂ (· * ·) h1 h2) h3

/-- THE SECOND STORE at block entry (p, q): the i-perceptron of row p times the other block of summed edge quantities. -/
theorem store_dw_apply (x : Vec Ideal S5000x128 .f32)
    (iW1 : Vec Ideal S128x128 .f32) (ib1 : Vec Ideal S1x128 .f32) (iW2 : Vec Ideal S128x1 .f32) (ib2 : Vec Ideal S1x1 .f32)
    (g : Vec Ideal S5000x3 .f32) (p : Fin 5000) (q : Fin 3) :
    k0_pay2 (F := Ideal) (k0_pay5 x iW1 ib1 iW2) (k0_pay6 ib2) g (ix2 p q)
      = rowMlp x iW1 ib1 iW2 ib2 p * g (ix2 p q) := by
  have h1 := (Cert.Lib.ColumnBroadcast.broadcastTo_a1_ab_apply (a := 5000) (b := 3)
    (addf (k0_pay5 (F := Ideal) x iW1 ib1 iW2) (k0_pay6 (F := Ideal) ib2)) broadcasts_S5000x1_S5000x3 p q).trans
    (column_i_apply x iW1 ib1 iW2 ib2 p)
  have h2 : shapeCast S5000x3 g shapeCasts_S5000x3_S5000x3 (ix2 p q) = g (ix2 p q) :=
    congrFun (shapeCast_self g shapeCasts_S5000x3_S5000x3) (ix2 p q)
  unfold k0_pay2
  exact congrArg₂ (· * ·) h1 h2

end Cert.KernelIdeal.BlockPerceptron

end
-- ==== Proof.RegionEntry.lean ====
import proofs.«165260_j28217935135446_1_alg».proof.Proof.Gen.KernelIdeal.Frame
import Idealize.ShloMosaic.Lib.StableHlo.Run
import Idealize.ShloMosaic.Lib.ValueLayout

/-!
  What the kernel's one region finds in the arrays that the host operations before it wrote.

  Six of the region's operands are biases given a second axis by a reshape ([128] to [1, 128], [1] to [1, 1]): such an
  array's entry (0, k) is the bias's entry k. Two more are the arrays of summed edge quantities, each a scatter-add of
  one edge array into zeros at the receivers' row of the edge index: these are named as one function `summed` of the
  edge index and the edge array, and never opened.
-/

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The per-node sums of an edge array `u` over the edges received: `u` scatter-added into zeros [100000, 3] at the
    node numbers in row 1 of the edge index `e`. -/
def summed (e : (⟨S2x3200000, .i32⟩ : BufTy).Contents (Elt Ideal)) (u : (⟨S3200000x3, .f32⟩ : BufTy).Contents (Elt Ideal)) :
    (⟨S100000x3, .f32⟩ : BufTy).Contents (Elt Ideal) :=
  Host.scatterAdd scatter_S100000x3_S3200000x1_S3200000x3_1_0_0_1
    (broadcastInDim S100000x3 ![] bcast_S_S100000x3 (constant (F := Ideal) S_ .f32 0x00000000#32))
    (broadcastInDim S3200000x1 ![0] bcast_S3200000_S3200000x1_0
      (shapeCast S3200000 (extractStridedSlice S1x3200000 ![1, 0] e slices_S2x3200000_S1x3200000_1_0) shapeCasts_S1x3200000_S3200000))
    u

/-- The first array of summed edge quantities, as the region finds it. -/
theorem entry_sums_f (c : Dev nD) :
    (V m c main_v4 : S100000x3.Idx → EReal)
      = summed (m ((c : Thread nD τ).loc main_arg0)) (m ((c : Thread nD τ).loc main_arg2)) := by
  dsimp only [Gen.V, Gen.hostOps0]
  after_results
  rfl

/-- The second array of summed edge quantities, as the region finds it. -/
theorem entry_sums_t (c : Dev nD) :
    (V m c main_v7 : S100000x3.Idx → EReal)
      = summed (m ((c : Thread nD τ).loc main_arg0)) (m ((c : Thread nD τ).loc main_arg3)) := by
  dsimp only [Gen.V, Gen.hostOps0]
  after_results
  rfl

/-- A bias [128] reshaped to one row [1, 128] reads, at (0, k), the bias at k. -/
theorem row_of_bias (b : (⟨S128, .f32⟩ : BufTy).Contents (Elt Ideal)) (k : Fin 128) :
    shapeCast S1x128 b shapeCasts_S128_S1x128 (ix2 (0 : Fin 1) k) = b (ix1 k) :=
  shapeCast_a_1a_apply (a := 128) b shapeCasts_S128_S1x128 (0 : Fin 1) k

/-- A bias [1] reshaped to one entry [1, 1] reads that entry. -/
theorem entry_of_bias (b : (⟨S1, .f32⟩ : BufTy).Contents (Elt Ideal)) :
    shapeCast S1x1 b shapeCasts_S1_S1x1 (ix2 (0 : Fin 1) (0 : Fin 1)) = b (ix1 (0 : Fin 1)) :=
  shapeCast_a_1a_apply (a := 1) b shapeCasts_S1_S1x1 (0 : Fin 1) (0 : Fin 1)

/-- The m-perceptron's first bias, as the region finds it. -/
theorem entry_bias_m1 (c : Dev nD) (k : Fin 128) :
    (V m c main_v8 : S1x128.Idx → EReal) (ix2 (0 : Fin 1) k) = m ((c : Thread nD τ).loc main_arg5) (ix1 k) := by
  have e : (V m c main_v8 : S1x128.Idx → EReal) = shapeCast S1x128 (m ((c : Thread nD τ).loc main_arg5)) shapeCasts_S128_S1x128 := by
    dsimp only [Gen.V, Gen.hostOps0]; after_results; rfl
  rw [e]; exact row_of_bias _ k

/-- The i-perceptron's first bias, as the region finds it. -/
theorem entry_bias_i1 (c : Dev nD) (k : Fin 128) :
    (V m c main_v9 : S1x128.Idx → EReal) (ix2 (0 : Fin 1) k) = m ((c : Thread nD τ).loc main_arg9) (ix1 k) := by
  have e : (V m c main_v9 : S1x128.Idx → EReal) = shapeCast S1x128 (m ((c : Thread nD τ).loc main_arg9)) shapeCasts_S128_S1x128 := by
    dsimp only [Gen.V, Gen.hostOps0]; after_results; rfl
  rw [e]; exact row_of_bias _ k

/-- The e-perceptron's first bias, as the region finds it. -/
theorem entry_bias_e1 (c : Dev nD) (k : Fin 128) :
    (V m c main_v10 : S1x128.Idx → EReal) (ix2 (0 : Fin 1) k) = m ((c : Thread nD τ).loc main_arg13) (ix1 k) := by
  have e : (V m c main_v10 : S1x128.Idx → EReal) = shapeCast S1x128 (m ((c : Thread nD τ).loc main_arg13)) shapeCasts_S128_S1x128 := by
    dsimp only [Gen.V, Gen.hostOps0]; after_results; rfl
  rw [e]; exact row_of_bias _ k

/-- The m-perceptron's second bias, as the region finds it. -/
theorem entry_bias_m2 (c : Dev nD) :
    (V m c main_v11 : S1x1.Idx → EReal) (ix2 (0 : Fin 1) (0 : Fin 1)) = m ((c : Thread nD τ).loc main_arg7) (ix1 (0 : Fin 1)) := by
  have e : (V m c main_v11 : S1x1.Idx → EReal) = shapeCast S1x1 (m ((c : Thread nD τ).loc main_arg7)) shapeCasts_S1_S1x1 := by
    dsimp only [Gen.V, Gen.hostOps0]; after_results; rfl
  rw [e]; exact entry_of_bias _

/-- The i-perceptron's second bias, as the region finds it. -/
theorem entry_bias_i2 (c : Dev nD) :
    (V m c main_v12 : S1x1.Idx → EReal) (ix2 (0 : Fin 1) (0 : Fin 1)) = m ((c : Thread nD τ).loc main_arg11) (ix1 (0 : Fin 1)) := by
  have e : (V m c main_v12 : S1x1.Idx → EReal) = shapeCast S1x1 (m ((c : Thread nD τ).loc main_arg11)) shapeCasts_S1_S1x1 := by
    dsimp only [Gen.V, Gen.hostOps0]; after_results; rfl
  rw [e]; exact entry_of_bias _

/-- The e-perceptron's second bias, as the region finds it. -/
theorem entry_bias_e2 (c : Dev nD) :
    (V m c main_v13 : S1x1.Idx → EReal) (ix2 (0 : Fin 1) (0 : Fin 1)) = m ((c : Thread nD τ).loc main_arg15) (ix1 (0 : Fin 1)) := by
  have e : (V m c main_v13 : S1x1.Idx → EReal) = shapeCast S1x1 (m ((c : Thread nD τ).loc main_arg15)) shapeCasts_S1_S1x1 := by
    dsimp only [Gen.V, Gen.hostOps0]; after_results; rfl
  rw [e]; exact entry_of_bias _

end Cert.KernelIdeal.RegionEntry

end
-- ==== Proof.KernelDecoder.lean ====
import proofs.«165260_j28217935135446_1_alg».proof.Proof.KernelIdealValueP
import proofs.«165260_j28217935135446_1_alg».proof.Proof.BlockPerceptron
import proofs.«165260_j28217935135446_1_alg».proof.Proof.RegionEntry

/-!
  The kernel's two result arrays are the node decoder's `dv` and `dw`.

  The region runs the body at 20 grid points. Point t works on nodes 5000·t … 5000·t + 4999: it reads that block of
  latent rows and the same blocks of the two arrays of summed edge quantities, and, at every point, the whole of each
  weight and bias array. What it writes back to either result is, at block entry (p, q), the body's store there
  (BlockPerceptron), which is the node decoder at node 5000·t + p and component q. The 20 blocks tile the result arrays,
  so each result array is the node decoder everywhere.
-/

open scoped BigOperators

noncomputable section

namespace Cert.KernelIdeal.Decoder

open Cert.KernelIdeal Cert.KernelIdeal.Gen Cert.KernelIdeal.ValueP Cert.KernelIdeal.BlockPerceptron Cert.KernelIdeal.RegionEntry
open Cert.NodeDecoder Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The windows' blocks, named at their literal shapes -/

abbrev latent (c : Dev nD) (t : Fin cfg0.N) : Vec Ideal S5000x128 .f32 := iblk m c 0 t
abbrev mW1blk (c : Dev nD) (t : Fin cfg0.N) : Vec Ideal S128x128 .f32 := iblk m c 1 t
abbrev mb1blk (c : Dev nD) (t : Fin cfg0.N) : Vec Ideal S1x128 .f32 := iblk m c 2 t
abbrev mW2blk (c : Dev nD) (t : Fin cfg0.N) : Vec Ideal S128x1 .f32 := iblk m c 3 t
abbrev mb2blk (c : Dev nD) (t : Fin cfg0.N) : Vec Ideal S1x1 .f32 := iblk m c 4 t
abbrev iW1blk (c : Dev nD) (t : Fin cfg0.N) : Vec Ideal S128x128 .f32 := iblk m c 5 t
abbrev ib1blk (c : Dev nD) (t : Fin cfg0.N) : Vec Ideal S1x128 .f32 := iblk m c 6 t
abbrev iW2blk (c : Dev nD) (t : Fin cfg0.N) : Vec Ideal S128x1 .f32 := iblk m c 7 t
abbrev ib2blk (c : Dev nD) (t : Fin cfg0.N) : Vec Ideal S1x1 .f32 := iblk m c 8 t
abbrev eW1blk (c : Dev nD) (t : Fin cfg0.N) : Vec Ideal S128x128 .f32 := iblk m c 9 t
abbrev eb1blk (c : Dev nD) (t : Fin cfg0.N) : Vec Ideal S1x128 .f32 := iblk m c 10 t
abbrev eW2blk (c : Dev nD) (t : Fin cfg0.N) : Vec Ideal S128x1 .f32 := iblk m c 11 t
abbrev eb2blk (c : Dev nD) (t : Fin cfg0.N) : Vec Ideal S1x1 .f32 := iblk m c 12 t
abbrev sumsFblk (c : Dev nD) (t : Fin cfg0.N) : Vec Ideal S5000x3 .f32 := iblk m c 13 t
abbrev sumsTblk (c : Dev nD) (t : Fin cfg0.N) : Vec Ideal S5000x3 .f32 := iblk m c 14 t

/-! ## Where each window's block lies at a grid point -/

/-- The printed index maps over the 20 points: the three row-blocked inputs and the second result move with the first
    result's block row, which is the point's number; everything else stays at block (0, 0). -/
theorem block_rows : ∀ t : Fin cfg0.N,
      win0_15.index t (0 : Fin 2) = t.val ∧ win0_15.index t (1 : Fin 2) = 0
    ∧ win0_16.index t (0 : Fin 2) = t.val ∧ win0_16.index t (1 : Fin 2) = 0
    ∧ win0_0.index t (0 : Fin 2) = t.val ∧ win0_0.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

theorem whole_m : ∀ t : Fin cfg0.N,
      win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem whole_i : ∀ t : Fin cfg0.N,
      win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem whole_e : ∀ t : Fin cfg0.N,
      win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

theorem points_lt (t : Fin cfg0.N) : t.val < 20 := lt_of_lt_of_eq t.isLt N_0

/-- The node that row `p` of point `t`'s blocks belongs to. -/
def node (t : Fin cfg0.N) (p : Fin 5000) : Fin 100000 :=
  ⟨t.val * 5000 + p.val, by have := points_lt t; have := p.isLt; omega⟩

/-! ## Each block read at an entry: the array as launched, at the entry's place in it -/

/-- Row `p` of the point's latent block is the latent row of node `node t p`. -/
theorem latent_apply (c : Dev nD) (t : Fin cfg0.N) (p : Fin 5000) (d : Fin 128) :
    latent m c t (ix2 p d) = m ((c : Thread nD τ).loc main_arg1) (ix2 (node t p) d) := by
  obtain ⟨-, -, -, -, e0, e1, -⟩ := block_rows t
  have h : ((cfg0.win 0).blk t).view.emb (ix2 p d) = ix2 (node t p) d := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * d.val = d.val; omega
  show V m c main_arg1 (((cfg0.win 0).blk t).view.emb (ix2 p d)) = _
  rw [h, V_main_arg1]

/-- The point's block of the first summed edge quantities is the same block of `summed`: the array is named before
    any entry of it is read. -/
theorem sumsF_blk (c : Dev nD) (t : Fin cfg0.N) :
    sumsFblk m c t = ((cfg0.win 13).blk t).view.read (Elt Ideal)
      (summed (m ((c : Thread nD τ).loc main_arg0)) (m ((c : Thread nD τ).loc main_arg2))) := by
  have e : (V m c (Pipeline.arrRef spec0 13) : S100000x3.Idx → EReal)
      = summed (m ((c : Thread nD τ).loc main_arg0)) (m ((c : Thread nD τ).loc main_arg2)) := entry_sums_f m c
  show ((cfg0.win 13).blk t).view.read (Elt Ideal) (V m c (Pipeline.arrRef spec0 13)) = _
  rw [e]

/-- What the window of the first summed edge quantities reads of ANY array [100000, 3] at point `t`, entry (p, q), is
    the array's entry (node t p, q). Stated over an arbitrary array, which is never opened. -/
theorem read_sumsF (t : Fin cfg0.N) (G : FVec Ideal ⟨2, ![100000, 3]⟩ .f32) (p : Fin 5000) (q : Fin 3) :
    ((cfg0.win 13).blk t).view.read (Elt Ideal) G (ix2 p q) = G (ix2 (node t p) q) := by
  obtain ⟨-, -, -, -, -, -, e0, e1, -⟩ := block_rows t
  have h : ((cfg0.win 13).blk t).view.emb (ix2 p q) = ix2 (node t p) q := by
    funext a; apply Fin.ext
    match a with
    | ⟨0, _⟩ => show win0_13.index t (0 : Fin 2) * 5000 + 1 * p.val = t.val * 5000 + p.val; omega
    | ⟨1, _⟩ => show win0_13.index t (1 : Fin 2) * 3 + 1 * q.val = q.val; omega
  show G (((cfg0.win 13).blk t).view.emb (ix2 p q)) = _
  rw [h]

/-- Row `p` of that block is row `node t p` of the array. -/
theorem sumsF_apply (c : Dev nD) (t : Fin cfg0.N) (p : Fin 5000) (q : Fin 3) :
    sumsFblk m c t (ix2 p q)
      = summed (m ((c : Thread nD τ).loc main_arg0)) (m ((c : Thread nD τ).loc main_arg2)) (ix2 (node t p) q) := by
  rw [sumsF_blk]
  exact read_sumsF t _ p q

/-- The same for the second summed edge quantities. -/
theorem sumsT_blk (c : Dev nD) (t : Fin cfg0.N) :
    sumsTblk m c t = ((cfg0.win 14).blk t).view.read (Elt Ideal)
      (summed (m ((c : Thread nD τ).loc main_arg0)) (m ((c : Thread nD τ).loc main_arg3))) := by
  have e : (V m c (Pipeline.arrRef spec0 14) : S100000x3.Idx → EReal)
      = summed (m ((c : Thread nD τ).loc main_arg0)) (m ((c : Thread nD τ).loc main_arg3)) := entry_sums_t m c
  show ((cfg0.win 14).blk t).view.read (Elt Ideal) (V m c (Pipeline.arrRef spec0 14)) = _
  rw [e]

theorem read_sumsT (t : Fin cfg0.N) (G : FVec Ideal ⟨2, ![100000, 3]⟩ .f32) (p : Fin 5000) (q : Fin 3) :
    ((cfg0.win 14).blk t).view.read (Elt Ideal) G (ix2 p q) = G (ix2 (node t p) q) := by
  obtain ⟨-, -, -, -, -, -, -, -, e0, e1⟩ := block_rows t
  have h : ((cfg0.win 14).blk t).view.emb (ix2 p q) = ix2 (node t p) q := by
    funext a; apply Fin.ext
    match a with
    | ⟨0, _⟩ => show win0_14.index t (0 : Fin 2) * 5000 + 1 * p.val = t.val * 5000 + p.val; omega
    | ⟨1, _⟩ => show win0_14.index t (1 : Fin 2) * 3 + 1 * q.val = q.val; omega
  show G (((cfg0.win 14).blk t).view.emb (ix2 p q)) = _
  rw [h]

theorem sumsT_apply (c : Dev nD) (t : Fin cfg0.N) (p : Fin 5000) (q : Fin 3) :
    sumsTblk m c t (ix2 p q)
      = summed (m ((c : Thread nD τ).loc main_arg0)) (m ((c : Thread nD τ).loc main_arg3)) (ix2 (node t p) q) := by
  rw [sumsT_blk]
  exact read_sumsT t _ p q

/-- The m-perceptron's weights and biases: at every point the block is the whole array. -/
theorem mW1_apply (c : Dev nD) (t : Fin cfg0.N) (d k : Fin 128) :
    mW1blk m c t (ix2 d k) = m ((c : Thread nD τ).loc main_arg4) (ix2 d k) := by
  obtain ⟨e0, e1, -⟩ := whole_m t
  have h : ((cfg0.win 1).blk t).view.emb (ix2 d k) = ix2 d k := by
    funext a; apply Fin.ext
    match a with
    | ⟨0, _⟩ => show win0_1.index t (0 : Fin 2) * 128 + 1 * d.val = d.val; omega
    | ⟨1, _⟩ => show win0_1.index t (1 : Fin 2) * 128 + 1 * k.val = k.val; omega
  show V m c main_arg4 (((cfg0.win 1).blk t).view.emb (ix2 d k)) = _
  rw [h, V_main_arg4]

theorem mb1_apply (c : Dev nD) (t : Fin cfg0.N) (k : Fin 128) :
    mb1blk m c t (ix2 (0 : Fin 1) k) = m ((c : Thread nD τ).loc main_arg5) (ix1 k) := by
  obtain ⟨-, -, e0, e1, -⟩ := whole_m t
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 128 + 1 * k.val = k.val; omega
  show (V m c main_v8 : S1x128.Idx → EReal) (((cfg0.win 2).blk t).view.emb (ix2 (0 : Fin 1) k)) = _
  rw [h, entry_bias_m1]

theorem mW2_apply (c : Dev nD) (t : Fin cfg0.N) (k : Fin 128) :
    mW2blk m c t (ix2 k (0 : Fin 1)) = m ((c : Thread nD τ).loc main_arg6) (ix2 k (0 : Fin 1)) := by
  obtain ⟨-, -, -, -, e0, e1, -⟩ := whole_m t
  have h : ((cfg0.win 3).blk t).view.emb (ix2 k (0 : Fin 1)) = ix2 k (0 : Fin 1) := by
    funext a; apply Fin.ext
    match a with
    | ⟨0, _⟩ => show win0_3.index t (0 : Fin 2) * 128 + 1 * k.val = k.val; omega
    | ⟨1, _⟩ => show win0_3.index t (1 : Fin 2) * 1 + 1 * 0 = 0; omega
  show V m c main_arg6 (((cfg0.win 3).blk t).view.emb (ix2 k (0 : Fin 1))) = _
  rw [h, V_main_arg6]

theorem mb2_apply (c : Dev nD) (t : Fin cfg0.N) :
    mb2blk m c t (ix2 (0 : Fin 1) (0 : Fin 1)) = m ((c : Thread nD τ).loc main_arg7) (ix1 (0 : Fin 1)) := by
  obtain ⟨-, -, -, -, -, -, e0, e1⟩ := whole_m t
  have h : ((cfg0.win 4).blk t).view.emb (ix2 (0 : Fin 1) (0 : Fin 1)) = ix2 (0 : Fin 1) (0 : Fin 1) := by
    funext a; apply Fin.ext
    match a with
    | ⟨0, _⟩ => show win0_4.index t (0 : Fin 2) * 1 + 1 * 0 = 0; omega
    | ⟨1, _⟩ => show win0_4.index t (1 : Fin 2) * 1 + 1 * 0 = 0; omega
  show (V m c main_v11 : S1x1.Idx → EReal) (((cfg0.win 4).blk t).view.emb (ix2 (0 : Fin 1) (0 : Fin 1))) = _
  rw [h, entry_bias_m2]

/-- The i-perceptron's weights and biases. -/
theorem iW1_apply (c : Dev nD) (t : Fin cfg0.N) (d k : Fin 128) :
    iW1blk m c t (ix2 d k) = m ((c : Thread nD τ).loc main_arg8) (ix2 d k) := by
  obtain ⟨e0, e1, -⟩ := whole_i t
  have h : ((cfg0.win 5).blk t).view.emb (ix2 d k) = ix2 d k := by
    funext a; apply Fin.ext
    match a with
    | ⟨0, _⟩ => show win0_5.index t (0 : Fin 2) * 128 + 1 * d.val = d.val; omega
    | ⟨1, _⟩ => show win0_5.index t (1 : Fin 2) * 128 + 1 * k.val = k.val; omega
  show V m c main_arg8 (((cfg0.win 5).blk t).view.emb (ix2 d k)) = _
  rw [h, V_main_arg8]

theorem ib1_apply (c : Dev nD) (t : Fin cfg0.N) (k : Fin 128) :
    ib1blk m c t (ix2 (0 : Fin 1) k) = m ((c : Thread nD τ).loc main_arg9) (ix1 k) := by
  obtain ⟨-, -, e0, e1, -⟩ := whole_i t
  have h : ((cfg0.win 6).blk t).view.emb (ix2 (0 : Fin 1) k) = ix2 (0 : Fin 1) k := by
    funext a; apply Fin.ext
    match a with
    | ⟨0, _⟩ => show win0_6.index t (0 : Fin 2) * 1 + 1 * 0 = 0; omega
    | ⟨1, _⟩ => show win0_6.index t (1 : Fin 2) * 128 + 1 * k.val = k.val; omega
  show (V m c main_v9 : S1x128.Idx → EReal) (((cfg0.win 6).blk t).view.emb (ix2 (0 : Fin 1) k)) = _
  rw [h, entry_bias_i1]

theorem iW2_apply (c : Dev nD) (t : Fin cfg0.N) (k : Fin 128) :
    iW2blk m c t (ix2 k (0 : Fin 1)) = m ((c : Thread nD τ).loc main_arg10) (ix2 k (0 : Fin 1)) := by
  obtain ⟨-, -, -, -, e0, e1, -⟩ := whole_i t
  have h : ((cfg0.win 7).blk t).view.emb (ix2 k (0 : Fin 1)) = ix2 k (0 : Fin 1) := by
    funext a; apply Fin.ext
    match a with
    | ⟨0, _⟩ => show win0_7.index t (0 : Fin 2) * 128 + 1 * k.val = k.val; omega
    | ⟨1, _⟩ => show win0_7.index t (1 : Fin 2) * 1 + 1 * 0 = 0; omega
  show V m c main_arg10 (((cfg0.win 7).blk t).view.emb (ix2 k (0 : Fin 1))) = _
  rw [h, V_main_arg10]

theorem ib2_apply (c : Dev nD) (t : Fin cfg0.N) :
    ib2blk m c t (ix2 (0 : Fin 1) (0 : Fin 1)) = m ((c : Thread nD τ).loc main_arg11) (ix1 (0 : Fin 1)) := by
  obtain ⟨-, -, -, -, -, -, e0, e1⟩ := whole_i t
  have h : ((cfg0.win 8).blk t).view.emb (ix2 (0 : Fin 1) (0 : Fin 1)) = ix2 (0 : Fin 1) (0 : Fin 1) := by
    funext a; apply Fin.ext
    match a with
    | ⟨0, _⟩ => show win0_8.index t (0 : Fin 2) * 1 + 1 * 0 = 0; omega
    | ⟨1, _⟩ => show win0_8.index t (1 : Fin 2) * 1 + 1 * 0 = 0; omega
  show (V m c main_v12 : S1x1.Idx → EReal) (((cfg0.win 8).blk t).view.emb (ix2 (0 : Fin 1) (0 : Fin 1))) = _
  rw [h, entry_bias_i2]

/-- The e-perceptron's weights and biases. -/
theorem eW1_apply (c : Dev nD) (t : Fin cfg0.N) (d k : Fin 128) :
    eW1blk m c t (ix2 d k) = m ((c : Thread nD τ).loc main_arg12) (ix2 d k) := by
  obtain ⟨e0, e1, -⟩ := whole_e t
  have h : ((cfg0.win 9).blk t).view.emb (ix2 d k) = ix2 d k := by
    funext a; apply Fin.ext
    match a with
    | ⟨0, _⟩ => show win0_9.index t (0 : Fin 2) * 128 + 1 * d.val = d.val; omega
    | ⟨1, _⟩ => show win0_9.index t (1 : Fin 2) * 128 + 1 * k.val = k.val; omega
  show V m c main_arg12 (((cfg0.win 9).blk t).view.emb (ix2 d k)) = _
  rw [h, V_main_arg12]

theorem eb1_apply (c : Dev nD) (t : Fin cfg0.N) (k : Fin 128) :
    eb1blk m c t (ix2 (0 : Fin 1) k) = m ((c : Thread nD τ).loc main_arg13) (ix1 k) := by
  obtain ⟨-, -, e0, e1, -⟩ := whole_e t
  have h : ((cfg0.win 10).blk t).view.emb (ix2 (0 : Fin 1) k) = ix2 (0 : Fin 1) k := by
    funext a; apply Fin.ext
    match a with
    | ⟨0, _⟩ => show win0_10.index t (0 : Fin 2) * 1 + 1 * 0 = 0; omega
    | ⟨1, _⟩ => show win0_10.index t (1 : Fin 2) * 128 + 1 * k.val = k.val; omega
  show (V m c main_v10 : S1x128.Idx → EReal) (((cfg0.win 10).blk t).view.emb (ix2 (0 : Fin 1) k)) = _
  rw [h, entry_bias_e1]

theorem eW2_apply (c : Dev nD) (t : Fin cfg0.N) (k : Fin 128) :
    eW2blk m c t (ix2 k (0 : Fin 1)) = m ((c : Thread nD τ).loc main_arg14) (ix2 k (0 : Fin 1)) := by
  obtain ⟨-, -, -, -, e0, e1, -⟩ := whole_e t
  have h : ((cfg0.win 11).blk t).view.emb (ix2 k (0 : Fin 1)) = ix2 k (0 : Fin 1) := by
    funext a; apply Fin.ext
    match a with
    | ⟨0, _⟩ => show win0_11.index t (0 : Fin 2) * 128 + 1 * k.val = k.val; omega
    | ⟨1, _⟩ => show win0_11.index t (1 : Fin 2) * 1 + 1 * 0 = 0; omega
  show V m c main_arg14 (((cfg0.win 11).blk t).view.emb (ix2 k (0 : Fin 1))) = _
  rw [h, V_main_arg14]

theorem eb2_apply (c : Dev nD) (t : Fin cfg0.N) :
    eb2blk m c t (ix2 (0 : Fin 1) (0 : Fin 1)) = m ((c : Thread nD τ).loc main_arg15) (ix1 (0 : Fin 1)) := by
  obtain ⟨-, -, -, -, -, -, e0, e1⟩ := whole_e t
  have h : ((cfg0.win 12).blk t).view.emb (ix2 (0 : Fin 1) (0 : Fin 1)) = ix2 (0 : Fin 1) (0 : Fin 1) := by
    funext a; apply Fin.ext
    match a with
    | ⟨0, _⟩ => show win0_12.index t (0 : Fin 2) * 1 + 1 * 0 = 0; omega
    | ⟨1, _⟩ => show win0_12.index t (1 : Fin 2) * 1 + 1 * 0 = 0; omega
  show (V m c main_v13 : S1x1.Idx → EReal) (((cfg0.win 12).blk t).view.emb (ix2 (0 : Fin 1) (0 : Fin 1))) = _
  rw [h, entry_bias_e2]

/-! ## A block row's perceptron is its node's -/

/-- If a block of latent rows holds node `n`'s row at `p`, and the weight and bias blocks hold the arrays' entries (the
    biases through their added axis), the body's perceptron of row `p` is the node decoder's of node `n`. -/
theorem rowMlp_eq_nodeMlp (X : FVec Ideal ⟨2, ![100000, 128]⟩ .f32) (W1 : FVec Ideal ⟨2, ![128, 128]⟩ .f32)
    (b1 : FVec Ideal ⟨1, ![128]⟩ .f32) (W2 : FVec Ideal ⟨2, ![128, 1]⟩ .f32) (b2 : FVec Ideal ⟨1, ![1]⟩ .f32)
    (x : FVec Ideal S5000x128 .f32) (w1 : FVec Ideal S128x128 .f32) (r1 : FVec Ideal S1x128 .f32)
    (w2 : FVec Ideal S128x1 .f32) (r2 : FVec Ideal S1x1 .f32) (n : Fin 100000) (p : Fin 5000)
    (hx : ∀ d : Fin 128, x (ix2 p d) = X (ix2 n d)) (hw1 : ∀ d k : Fin 128, w1 (ix2 d k) = W1 (ix2 d k))
    (hr1 : ∀ k : Fin 128, r1 (ix2 (0 : Fin 1) k) = b1 (ix1 k))
    (hw2 : ∀ k : Fin 128, w2 (ix2 k (0 : Fin 1)) = W2 (ix2 k (0 : Fin 1)))
    (hr2 : r2 (ix2 (0 : Fin 1) (0 : Fin 1)) = b2 (ix1 (0 : Fin 1))) :
    rowMlp x w1 r1 w2 r2 p = nodeMlp X W1 b1 W2 b2 n := by
  unfold rowMlp nodeMlp
  rw [funext hx, funext fun d => funext (hw1 d), funext hr1, funext hw2, hr2]

/-! ## The two result arrays -/

/-- The first result: the node decoder's `dv` of the launch contents. -/
def dvArr (c : Dev nD) : FVec Ideal ⟨2, ![100000, 3]⟩ .f32 :=
  dv (m ((c : Thread nD τ).loc main_arg1))
    (m ((c : Thread nD τ).loc main_arg4)) (m ((c : Thread nD τ).loc main_arg5))
    (m ((c : Thread nD τ).loc main_arg6)) (m ((c : Thread nD τ).loc main_arg7))
    (m ((c : Thread nD τ).loc main_arg12)) (m ((c : Thread nD τ).loc main_arg13))
    (m ((c : Thread nD τ).loc main_arg14)) (m ((c : Thread nD τ).loc main_arg15))
    (summed (m ((c : Thread nD τ).loc main_arg0)) (m ((c : Thread nD τ).loc main_arg2)))

/-- The second result: the node decoder's `dw` of the launch contents. -/
def dwArr (c : Dev nD) : FVec Ideal ⟨2, ![100000, 3]⟩ .f32 :=
  dw (m ((c : Thread nD τ).loc main_arg1))
    (m ((c : Thread nD τ).loc main_arg8)) (m ((c : Thread nD τ).loc main_arg9))
    (m ((c : Thread nD τ).loc main_arg10)) (m ((c : Thread nD τ).loc main_arg11))
    (summed (m ((c : Thread nD τ).loc main_arg0)) (m ((c : Thread nD τ).loc main_arg3)))

theorem dvArr_def (c : Dev nD) : dvArr m c
    = dv (m ((c : Thread nD τ).loc main_arg1))
      (m ((c : Thread nD τ).loc main_arg4)) (m ((c : Thread nD τ).loc main_arg5))
      (m ((c : Thread nD τ).loc main_arg6)) (m ((c : Thread nD τ).loc main_arg7))
      (m ((c : Thread nD τ).loc main_arg12)) (m ((c : Thread nD τ).loc main_arg13))
      (m ((c : Thread nD τ).loc main_arg14)) (m ((c : Thread nD τ).loc main_arg15))
      (summed (m ((c : Thread nD τ).loc main_arg0)) (m ((c : Thread nD τ).loc main_arg2))) := rfl

theorem dwArr_def (c : Dev nD) : dwArr m c
    = dw (m ((c : Thread nD τ).loc main_arg1))
      (m ((c : Thread nD τ).loc main_arg8)) (m ((c : Thread nD τ).loc main_arg9))
      (m ((c : Thread nD τ).loc main_arg10)) (m ((c : Thread nD τ).loc main_arg11))
      (summed (m ((c : Thread nD τ).loc main_arg0)) (m ((c : Thread nD τ).loc main_arg3))) := rfl

/-- Entry (n, q) of `dvArr`, written out. -/
theorem dvArr_apply (c : Dev nD) (n : Fin 100000) (q : Fin 3) :
    dvArr m c (ix2 n q)
      = nodeMlp (m ((c : Thread nD τ).loc main_arg1)) (m ((c : Thread nD τ).loc main_arg4))
            (m ((c : Thread nD τ).loc main_arg5)) (m ((c : Thread nD τ).loc main_arg6)) (m ((c : Thread nD τ).loc main_arg7)) n
          * summed (m ((c : Thread nD τ).loc main_arg0)) (m ((c : Thread nD τ).loc main_arg2)) (ix2 n q)
        + nodeMlp (m ((c : Thread nD τ).loc main_arg1)) (m ((c : Thread nD τ).loc main_arg12))
            (m ((c : Thread nD τ).loc main_arg13)) (m ((c : Thread nD τ).loc main_arg14)) (m ((c : Thread nD τ).loc main_arg15)) n := by
  unfold dvArr dv
  rfl

/-- Entry (n, q) of `dwArr`, written out. -/
theorem dwArr_apply (c : Dev nD) (n : Fin 100000) (q : Fin 3) :
    dwArr m c (ix2 n q)
      = nodeMlp (m ((c : Thread nD τ).loc main_arg1)) (m ((c : Thread nD τ).loc main_arg8))
            (m ((c : Thread nD τ).loc main_arg9)) (m ((c : Thread nD τ).loc main_arg10)) (m ((c : Thread nD τ).loc main_arg11)) n
          * summed (m ((c : Thread nD τ).loc main_arg0)) (m ((c : Thread nD τ).loc main_arg3)) (ix2 n q) := by
  unfold dwArr dw
  rfl

/-- The first store at point `t`, block entry (p, q), is `dvArr` at node `node t p`, component q. -/
theorem entry_dv (c : Dev nD) (t : Fin cfg0.N) (p : Fin 5000) (q : Fin 3) :
    k0_pay1 (F := Ideal) (k0_pay3 (latent m c t))
        (k0_pay4 (latent m c t) (mW1blk m c t) (mb1blk m c t) (mW2blk m c t) (mb2blk m c t))
        (eW1blk m c t) (eb1blk m c t) (eW2blk m c t) (eb2blk m c t) (sumsFblk m c t) (ix2 p q)
      = dvArr m c (ix2 (node t p) q) := by
  rw [dvArr_apply]
  refine (store_dv_apply (latent m c t) (mW1blk m c t) (mb1blk m c t) (mW2blk m c t) (mb2blk m c t)
    (eW1blk m c t) (eb1blk m c t) (eW2blk m c t) (eb2blk m c t) (sumsFblk m c t) p q).trans ?_
  exact congrArg₂ (· + ·)
    (congrArg₂ (· * ·)
      (rowMlp_eq_nodeMlp _ _ _ _ _ (latent m c t) (mW1blk m c t) (mb1blk m c t) (mW2blk m c t) (mb2blk m c t) (node t p) p
        (latent_apply m c t p) (mW1_apply m c t) (mb1_apply m c t) (mW2_apply m c t) (mb2_apply m c t))
      (sumsF_apply m c t p q))
    (rowMlp_eq_nodeMlp _ _ _ _ _ (latent m c t) (eW1blk m c t) (eb1blk m c t) (eW2blk m c t) (eb2blk m c t) (node t p) p
      (latent_apply m c t p) (eW1_apply m c t) (eb1_apply m c t) (eW2_apply m c t) (eb2_apply m c t))

/-- The second store at point `t`, block entry (p, q), is `dwArr` at node `node t p`, component q. -/
theorem entry_dw (c : Dev nD) (t : Fin cfg0.N) (p : Fin 5000) (q : Fin 3) :
    k0_pay2 (F := Ideal) (k0_pay5 (latent m c t) (iW1blk m c t) (ib1blk m c t) (iW2blk m c t))
        (k0_pay6 (ib2blk m c t)) (sumsTblk m c t) (ix2 p q)
      = dwArr m c (ix2 (node t p) q) := by
  rw [dwArr_apply]
  refine (store_dw_apply (latent m c t) (iW1blk m c t) (ib1blk m c t) (iW2blk m c t) (ib2blk m c t)
    (sumsTblk m c t) p q).trans ?_
  exact congrArg₂ (· * ·)
    (rowMlp_eq_nodeMlp _ _ _ _ _ (latent m c t) (iW1blk m c t) (ib1blk m c t) (iW2blk m c t) (ib2blk m c t) (node t p) p
      (latent_apply m c t p) (iW1_apply m c t) (ib1_apply m c t) (iW2_apply m c t) (ib2_apply m c t))
    (sumsT_apply m c t p q)

/-- A block [5000, 3] whose entry (p, q) is an array's entry (node t p, q), for every p and q, is what the first result's
    window reads of that array at point `t`. Stated over an arbitrary block and array: neither is opened. -/
theorem block_is_read_dv (t : Fin cfg0.N) (X : Vec Ideal S5000x3 .f32) (G : FVec Ideal ⟨2, ![100000, 3]⟩ .f32)
    (h : ∀ (p : Fin 5000) (q : Fin 3), X (ix2 p q) = G (ix2 (node t p) q)) :
    (cfg0.win 15).cut (grid0.coords t) X = ((cfg0.win 15).blk t).view.read (Elt Ideal) G := by
  funext j
  obtain ⟨p, q, rfl⟩ : ∃ (p : Fin 5000) (q : Fin 3), j = ix2 p q := ⟨j 0, j 1, eq_ix2 j⟩
  obtain ⟨e0, e1, -⟩ := block_rows t
  have hemb : ((cfg0.win 15).blk t).view.emb (ix2 p q) = ix2 (node t p) q := by
    funext a; apply Fin.ext
    match a with
    | ⟨0, _⟩ => show win0_15.index t (0 : Fin 2) * 5000 + 1 * p.val = t.val * 5000 + p.val; omega
    | ⟨1, _⟩ => show win0_15.index t (1 : Fin 2) * 3 + 1 * q.val = q.val; omega
  show X (ix2 p q) = G (((cfg0.win 15).blk t).view.emb (ix2 p q))
  rw [hemb]
  exact h p q

/-- The same for the second result's window. -/
theorem block_is_read_dw (t : Fin cfg0.N) (X : Vec Ideal S5000x3 .f32) (G : FVec Ideal ⟨2, ![100000, 3]⟩ .f32)
    (h : ∀ (p : Fin 5000) (q : Fin 3), X (ix2 p q) = G (ix2 (node t p) q)) :
    (cfg0.win 16).cut (grid0.coords t) X = ((cfg0.win 16).blk t).view.read (Elt Ideal) G := by
  funext j
  obtain ⟨p, q, rfl⟩ : ∃ (p : Fin 5000) (q : Fin 3), j = ix2 p q := ⟨j 0, j 1, eq_ix2 j⟩
  obtain ⟨-, -, e0, e1, -⟩ := block_rows t
  have hemb : ((cfg0.win 16).blk t).view.emb (ix2 p q) = ix2 (node t p) q := by
    funext a; apply Fin.ext
    match a with
    | ⟨0, _⟩ => show win0_16.index t (0 : Fin 2) * 5000 + 1 * p.val = t.val * 5000 + p.val; omega
    | ⟨1, _⟩ => show win0_16.index t (1 : Fin 2) * 3 + 1 * q.val = q.val; omega
  show X (ix2 p q) = G (((cfg0.win 16).blk t).view.emb (ix2 p q))
  rw [hemb]
  exact h p q

/-- WHAT POINT `t` WRITES BACK to the first result is block `t` of `dvArr`. -/
theorem flushed_dv (c : Dev nD) (t : Fin cfg0.N) :
    (dats m 0 c).flushed 15 t = ((cfg0.win 15).blk t).view.read (Elt Ideal) (dvArr m c) := by
  rw [flushed15]
  unfold out0_15
  rw [View.canon_unit_zero zero_offsets]
  simp only [View.ld_unit_zero (S := S5000x128) zero_offsets, View.ld_unit_zero (S := S128x128) zero_offsets,
    View.ld_unit_zero (S := S1x128) zero_offsets, View.ld_unit_zero (S := S128x1) zero_offsets,
    View.ld_unit_zero (S := S1x1) zero_offsets, View.ld_unit_zero (S := S5000x3) zero_offsets]
  exact block_is_read_dv t _ (dvArr m c) (entry_dv m c t)

/-- WHAT POINT `t` WRITES BACK to the second result is block `t` of `dwArr`. -/
theorem flushed_dw (c : Dev nD) (t : Fin cfg0.N) :
    (dats m 0 c).flushed 16 t = ((cfg0.win 16).blk t).view.read (Elt Ideal) (dwArr m c) := by
  rw [flushed16]
  unfold out0_16
  rw [View.canon_unit_zero zero_offsets]
  simp only [View.ld_unit_zero (S := S5000x128) zero_offsets, View.ld_unit_zero (S := S128x128) zero_offsets,
    View.ld_unit_zero (S := S1x128) zero_offsets, View.ld_unit_zero (S := S128x1) zero_offsets,
    View.ld_unit_zero (S := S1x1) zero_offsets, View.ld_unit_zero (S := S5000x3) zero_offsets]
  exact block_is_read_dw t _ (dwArr m c) (entry_dw m c t)

/-! ## The 20 blocks tile each result array -/

/-- An index of a result array is in point `t`'s block iff each coordinate is in the block's range on its axis. -/
theorem mem_block_dv (t : Fin cfg0.N) (i : S100000x3.Idx) :
    i ∈ ((cfg0.win 15).blk t).view.set ↔ ∀ a : Fin 2, win0_15.index t a * S5000x3.size a ≤ (i a).val
      ∧ (i a).val < win0_15.index t a * S5000x3.size a + S5000x3.size a := by
  show i ∈ ((View.whole main_v14_0).slice (win0_15.rect t)).set ↔ _
  rw [View.set_slice_whole, Rect.mem_set_unit]
  exact Iff.rfl

theorem mem_block_dw (t : Fin cfg0.N) (i : S100000x3.Idx) :
    i ∈ ((cfg0.win 16).blk t).view.set ↔ ∀ a : Fin 2, win0_16.index t a * S5000x3.size a ≤ (i a).val
      ∧ (i a).val < win0_16.index t a * S5000x3.size a + S5000x3.size a := by
  show i ∈ ((View.whole main_v14_1).slice (win0_16.rect t)).set ↔ _
  rw [View.set_slice_whole, Rect.mem_set_unit]
  exact Iff.rfl

/-- The point whose block holds row `r`: `r / 5000`. -/
def pointOf (r : Fin 100000) : Fin cfg0.N :=
  ⟨r.val / 5000, by rw [show cfg0.N = 20 from N_0]; have := r.isLt; omega⟩

theorem covered_dv (i : S100000x3.Idx) :
    ∃ t : Fin cfg0.N, (cfg0.win 15).flush t = true ∧ i ∈ ((cfg0.win 15).blk t).view.set := by
  have hi0 : (i 0).val < 100000 := (i 0).isLt
  have hi1 : (i 1).val < 3 := (i 1).isLt
  obtain ⟨e0, e1, -⟩ := block_rows (pointOf (i 0))
  have ht : (pointOf (i 0)).val = (i 0).val / 5000 := rfl
  refine ⟨pointOf (i 0), flush0_15 _, ?_⟩
  rw [mem_block_dv]
  intro a
  match a with
  | ⟨0, _⟩ =>
    show win0_15.index (pointOf (i 0)) (0 : Fin 2) * 5000 ≤ (i 0).val
      ∧ (i 0).val < win0_15.index (pointOf (i 0)) (0 : Fin 2) * 5000 + 5000
    omega
  | ⟨1, _⟩ =>
    show win0_15.index (pointOf (i 0)) (1 : Fin 2) * 3 ≤ (i 1).val
      ∧ (i 1).val < win0_15.index (pointOf (i 0)) (1 : Fin 2) * 3 + 3
    omega

theorem covered_dw (i : S100000x3.Idx) :
    ∃ t : Fin cfg0.N, (cfg0.win 16).flush t = true ∧ i ∈ ((cfg0.win 16).blk t).view.set := by
  have hi0 : (i 0).val < 100000 := (i 0).isLt
  have hi1 : (i 1).val < 3 := (i 1).isLt
  obtain ⟨-, -, e0, e1, -⟩ := block_rows (pointOf (i 0))
  have ht : (pointOf (i 0)).val = (i 0).val / 5000 := rfl
  refine ⟨pointOf (i 0), flush0_16 _, ?_⟩
  rw [mem_block_dw]
  intro a
  match a with
  | ⟨0, _⟩ =>
    show win0_16.index (pointOf (i 0)) (0 : Fin 2) * 5000 ≤ (i 0).val
      ∧ (i 0).val < win0_16.index (pointOf (i 0)) (0 : Fin 2) * 5000 + 5000
    omega
  | ⟨1, _⟩ =>
    show win0_16.index (pointOf (i 0)) (1 : Fin 2) * 3 ≤ (i 1).val
      ∧ (i 1).val < win0_16.index (pointOf (i 0)) (1 : Fin 2) * 3 + 3
    omega

/-- THE FIRST RESULT ARRAY after the run is `dvArr`. -/
theorem final_dv (c : Dev nD) : (dats m 0 c).arrAt 15 cfg0.N = dvArr m c :=
  (dats m 0 c).arrAt_eq_of_cover 15 (dvArr m c) (fun t _ => flushed_dv m c t) covered_dv

/-- THE SECOND RESULT ARRAY after the run is `dwArr`. -/
theorem final_dw (c : Dev nD) : (dats m 0 c).arrAt 16 cfg0.N = dwArr m c :=
  (dats m 0 c).arrAt_eq_of_cover 16 (dwArr m c) (fun t _ => flushed_dw m c t) covered_dw

/-! ## The run, read -/

/-- Every weakly fair execution of the kernel's program ends with the two results at `dvArr` and `dwArr`, the arguments
    unchanged. -/
theorem run : θ_run defs (onTc (τ := τ) (main (F := Ideal))) ⟨m, fun _ => 0, ρ⟩ fun r => ∀ c : Dev nD,
      r.2.mem ((c : Thread nD τ).loc main_v14_0) = dvArr m c
      ∧ r.2.mem ((c : Thread nD τ).loc main_v14_1) = dwArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final_dv m c), (h c).2.1.trans (final_dw m c), (h c).2.2⟩)
    (run_blocks m ρ)

end Cert.KernelIdeal.Decoder

end
-- ==== Proof.ReferenceDecoder.lean ====
import proofs.«165260_j28217935135446_1_alg».proof.Proof.Gen.ReferenceIdeal.Read
import proofs.«165260_j28217935135446_1_alg».proof.Proof.NodeDecoder

/-!
  The reference program's two results are the node decoder's `dv` and `dw`.

  The reference forms, for each of the three perceptrons, the whole hidden layer max(X · W1 + b1, 0) over all 100000
  nodes (b1 broadcast over the rows), multiplies by W2 and adds b2 (broadcast over the rows): a column [100000, 1]
  whose entry n is `nodeMlp … n`. It then spreads each column over the three components and combines them with the
  two arrays of summed edge quantities, which it computes by a scatter-add; those two arrays are carried here as they
  are, unread. The host's matrix product is, on the extended reals, the plain sum over the contracted index.
-/

open scoped BigOperators

noncomputable section

namespace Cert.ReferenceIdeal.Decoder

open Cert.ReferenceIdeal Cert.ReferenceIdeal.Read Cert.NodeDecoder Idealize.ShloMosaic Idealize.ShloMosaic.ValueIdx

/-- A hidden unit of the reference's first perceptron: entry (n, k) of max(X · W1 + b1, 0). -/
theorem hidden_apply (x1 : FVec Ideal S100000x128 .f32) (x4 : FVec Ideal S128x128 .f32) (x5 : FVec Ideal S128 .f32)
    (n : Fin 100000) (k : Fin 128) :
    val_main_v6 (F := Ideal) x1 x4 x5 (ix2 n k)
      = max ((∑ d : Fin 128, x1 (ix2 n d) * x4 (ix2 d k)) + x5 (ix1 k)) 0 := by
  have hl : ∀ d : Fin 128, lidx_main_v2 (ix2 n k) d = ix2 n d := fun d =>
    funext fun a => Fin.ext (by match a with | ⟨0, _⟩ => rfl | ⟨1, _⟩ => rfl)
  have hr : ∀ d : Fin 128, ridx_main_v2 (ix2 n k) d = ix2 d k := fun d =>
    funext fun a => Fin.ext (by match a with | ⟨0, _⟩ => rfl | ⟨1, _⟩ => rfl)
  have hb : idx_main_v3 (idx_main_v4 (ix2 n k)) = ix1 k :=
    funext fun a => Fin.ext (by match a with | ⟨0, _⟩ => rfl)
  rw [val_main_v6_apply, val_main_v5_apply, val_main_v2_apply, val_main_v4_apply, val_main_v3_apply,
    val_main_call0_v0_apply, val_main_call0_cst_apply, hb]
  show max ((∑ d : Fin 128, x1 (lidx_main_v2 (ix2 n k) d) * x4 (ridx_main_v2 (ix2 n k) d)) + x5 (ix1 k))
      (Ideal.ofBits .f32 0x00000000#32) = _
  rw [Ideal.ofBits_zero_f32]
  exact congrArg (fun s => max (s + x5 (ix1 k)) 0) (Finset.sum_congr rfl fun d _ => by rw [hl d, hr d])

/-- The reference's first perceptron column, at node `n`, is the node's perceptron. -/
theorem column_apply (x1 : FVec Ideal S100000x128 .f32) (x4 : FVec Ideal S128x128 .f32) (x5 : FVec Ideal S128 .f32)
    (x6 : FVec Ideal S128x1 .f32) (x7 : FVec Ideal S1 .f32) (n : Fin 100000) :
    val_main_v10 (F := Ideal) x1 x4 x5 x6 x7 (ix2 n (0 : Fin 1)) = nodeMlp x1 x4 x5 x6 x7 n := by
  have hl : ∀ k : Fin 128, lidx_main_v7 (ix2 n (0 : Fin 1)) k = ix2 n k := fun k =>
    funext fun a => Fin.ext (by match a with | ⟨0, _⟩ => rfl | ⟨1, _⟩ => rfl)
  have hr : ∀ k : Fin 128, ridx_main_v7 (ix2 n (0 : Fin 1)) k = ix2 k (0 : Fin 1) := fun k =>
    funext fun a => Fin.ext (by match a with | ⟨0, _⟩ => rfl | ⟨1, _⟩ => rfl)
  have hb : idx_main_v8 (idx_main_v9 (ix2 n (0 : Fin 1))) = ix1 (0 : Fin 1) :=
    funext fun a => Fin.ext (by match a with | ⟨0, _⟩ => rfl)
  rw [val_main_v10_apply, val_main_v7_apply, val_main_v9_apply, val_main_v8_apply, hb]
  show (∑ k : Fin 128, val_main_v6 (F := Ideal) x1 x4 x5 (lidx_main_v7 (ix2 n (0 : Fin 1)) k)
      * x6 (ridx_main_v7 (ix2 n (0 : Fin 1)) k)) + x7 (ix1 (0 : Fin 1)) = _
  unfold nodeMlp mlp
  exact congrArg (fun s => s + x7 (ix1 (0 : Fin 1)))
    (Finset.sum_congr rfl fun k _ => by rw [hl k, hr k, hidden_apply x1 x4 x5 n k])

/-- The second and third perceptron columns are the first one's term at the other weights. -/
theorem column_i_eq (x1 : FVec Ideal S100000x128 .f32) (x8 : FVec Ideal S128x128 .f32) (x9 : FVec Ideal S128 .f32)
    (x10 : FVec Ideal S128x1 .f32) (x11 : FVec Ideal S1 .f32) :
    val_main_v19 (F := Ideal) x1 x8 x9 x10 x11 = val_main_v10 (F := Ideal) x1 x8 x9 x10 x11 := rfl

theorem column_e_eq (x1 : FVec Ideal S100000x128 .f32) (x12 : FVec Ideal S128x128 .f32) (x13 : FVec Ideal S128 .f32)
    (x14 : FVec Ideal S128x1 .f32) (x15 : FVec Ideal S1 .f32) :
    val_main_v28 (F := Ideal) x1 x12 x13 x14 x15 = val_main_v10 (F := Ideal) x1 x12 x13 x14 x15 := rfl

/-- A column [100000, 1] spread over the three components reads, at (n, j), the column's entry n. -/
theorem spread_idx (n : Fin 100000) (j : Fin 3) : idx_main_v35 (ix2 n j) = ix2 n (0 : Fin 1) :=
  funext fun a => Fin.ext (by match a with | ⟨0, _⟩ => rfl | ⟨1, _⟩ => rfl)

/-- The reference's first result is `dv` of the arguments and of its own array of summed edge quantities. -/
theorem dv_eq (x0 : (⟨S2x3200000, .i32⟩ : BufTy).Contents (Elt Ideal)) (x1 : FVec Ideal S100000x128 .f32)
    (x2 : FVec Ideal S3200000x3 .f32) (x4 : FVec Ideal S128x128 .f32) (x5 : FVec Ideal S128 .f32)
    (x6 : FVec Ideal S128x1 .f32) (x7 : FVec Ideal S1 .f32) (x12 : FVec Ideal S128x128 .f32)
    (x13 : FVec Ideal S128 .f32) (x14 : FVec Ideal S128x1 .f32) (x15 : FVec Ideal S1 .f32) :
    val_main_v38 (F := Ideal) x0 x1 x2 x4 x5 x6 x7 x12 x13 x14 x15
      = dv x1 x4 x5 x6 x7 x12 x13 x14 x15 (val_main_v31 (F := Ideal) x0 x2) := by
  funext i
  obtain ⟨n, j, rfl⟩ : ∃ (n : Fin 100000) (j : Fin 3), i = ix2 n j := ⟨i 0, i 1, eq_ix2 i⟩
  rw [val_main_v38_apply, val_main_v36_apply, val_main_v35_apply, val_main_v37_apply, column_e_eq]
  show val_main_v10 (F := Ideal) x1 x4 x5 x6 x7 (idx_main_v35 (ix2 n j)) * val_main_v31 (F := Ideal) x0 x2 (ix2 n j)
      + val_main_v10 (F := Ideal) x1 x12 x13 x14 x15 (idx_main_v35 (ix2 n j)) = _
  rw [spread_idx, column_apply, column_apply]
  rfl

/-- The reference's second result is `dw` of the arguments and of its own array of summed edge quantities. -/
theorem dw_eq (x0 : (⟨S2x3200000, .i32⟩ : BufTy).Contents (Elt Ideal)) (x1 : FVec Ideal S100000x128 .f32)
    (x3 : FVec Ideal S3200000x3 .f32) (x8 : FVec Ideal S128x128 .f32) (x9 : FVec Ideal S128 .f32)
    (x10 : FVec Ideal S128x1 .f32) (x11 : FVec Ideal S1 .f32) :
    val_main_v40 (F := Ideal) x0 x1 x3 x8 x9 x10 x11
      = dw x1 x8 x9 x10 x11 (val_main_v34 (F := Ideal) x0 x3) := by
  funext i
  obtain ⟨n, j, rfl⟩ : ∃ (n : Fin 100000) (j : Fin 3), i = ix2 n j := ⟨i 0, i 1, eq_ix2 i⟩
  rw [val_main_v40_apply, val_main_v39_apply, column_i_eq]
  show val_main_v10 (F := Ideal) x1 x8 x9 x10 x11 (idx_main_v35 (ix2 n j)) * val_main_v34 (F := Ideal) x0 x3 (ix2 n j) = _
  rw [spread_idx, column_apply]
  rfl

end Cert.ReferenceIdeal.Decoder

end
-- ==== Proof.SummedEdges.lean ====
import proofs.«165260_j28217935135446_1_alg».proof.Proof.RegionEntry
import proofs.«165260_j28217935135446_1_alg».proof.Proof.Gen.ReferenceIdeal.Read

/-!
  Both programs sum the edge quantities per node by the same host operations: a scatter-add of the edge array into zeros
  at the receivers' row of the edge index. So the reference's two scatter-add stages are the function `summed` that
  names the kernel program's; the sums themselves are never opened.
-/

noncomputable section

namespace Cert.SummedEdges

open Idealize.ShloMosaic

/-- The reference's first scatter-add stage is `summed` of the edge index and the first edge array. -/
theorem sums_f_eq (e : (⟨Cert.ReferenceIdeal.S2x3200000, .i32⟩ : BufTy).Contents (Elt Ideal))
    (u : (⟨Cert.ReferenceIdeal.S3200000x3, .f32⟩ : BufTy).Contents (Elt Ideal)) :
    Cert.ReferenceIdeal.Read.val_main_v31 (F := Ideal) e u = Cert.KernelIdeal.RegionEntry.summed e u := rfl

/-- The reference's second scatter-add stage is `summed` of the edge index and the second edge array. -/
theorem sums_t_eq (e : (⟨Cert.ReferenceIdeal.S2x3200000, .i32⟩ : BufTy).Contents (Elt Ideal))
    (u : (⟨Cert.ReferenceIdeal.S3200000x3, .f32⟩ : BufTy).Contents (Elt Ideal)) :
    Cert.ReferenceIdeal.Read.val_main_v34 (F := Ideal) e u = Cert.KernelIdeal.RegionEntry.summed e u := rfl

end Cert.SummedEdges

end
-- ==== Proof.lean ====
/-
  Three small perceptrons decode every node of a graph, and two per-node sums of edge quantities are scaled by them.

  For each of 100000 nodes with latent row x (128 entries), and for three sets of weights m, i and e,
      mlp(x) = Σ_k max(Σ_d x_d · W1[d, k] + b1[k], 0) · W2[k] + b2.
  With Sf and St the arrays [100000, 3] of the edge quantities summed over each node's received edges (a scatter-add
  at the receivers' row of the edge index), the two results are
      dv[n, j] = mlp_m(x_n) · Sf[n, j] + mlp_e(x_n),        dw[n, j] = mlp_i(x_n) · St[n, j].

  The kernel's program computes Sf and St on the host and then, in one region of 20 grid points, the perceptrons and the
  two combinations on blocks of 5000 nodes; the reference computes everything on whole arrays. Over the extended reals a
  change of number format is the identity and a matrix product is the plain sum over the contracted index, in any order,
  so both programs compute the formulas above with the same grouping of products and sums: no law that would need the
  inputs to be finite is used, and the precondition is never opened.

  The pieces: NodeDecoder (the formulas), ReferenceDecoder (the reference's two results are the formulas),
  BlockPerceptron (the kernel's body on one block, entry by entry), RegionEntry (what the region finds in the arrays
  the host wrote before it), KernelDecoder (the 20 blocks tile the two result arrays), SummedEdges (the two programs'
  scatter-adds are one term). The frames are the generated ones; the ideal pass rewrote nothing, so the kernel is its
  own idealization.
-/
import proofs.«165260_j28217935135446_1_alg».proof.Defs
import proofs.«165260_j28217935135446_1_alg».proof.Proof.Gen.Kernel
import proofs.«165260_j28217935135446_1_alg».proof.Proof.Gen.Kernel.Skeleton
import proofs.«165260_j28217935135446_1_alg».proof.Proof.Gen.Kernel.Launch
import proofs.«165260_j28217935135446_1_alg».proof.Proof.Gen.Kernel.Points
import proofs.«165260_j28217935135446_1_alg».proof.Proof.Gen.Kernel.Frame
import proofs.«165260_j28217935135446_1_alg».proof.Proof.Gen.KernelIdeal
import proofs.«165260_j28217935135446_1_alg».proof.Proof.Gen.KernelIdeal.Skeleton
import proofs.«165260_j28217935135446_1_alg».proof.Proof.Gen.KernelIdeal.Launch
import proofs.«165260_j28217935135446_1_alg».proof.Proof.Gen.KernelIdeal.Points
import proofs.«165260_j28217935135446_1_alg».proof.Proof.Gen.KernelIdeal.Frame
import proofs.«165260_j28217935135446_1_alg».proof.Proof.Gen.ReferenceIdeal
import proofs.«165260_j28217935135446_1_alg».proof.Proof.Gen.Pre_finite_inputs
import proofs.«165260_j28217935135446_1_alg».proof.Proof.KernelIdealValueP
import proofs.«165260_j28217935135446_1_alg».proof.Proof.Gen.ReferenceIdeal.Run
import proofs.«165260_j28217935135446_1_alg».proof.Proof.Gen.ReferenceIdeal.Read
import proofs.«165260_j28217935135446_1_alg».proof.Proof.KernelDecoder
import proofs.«165260_j28217935135446_1_alg».proof.Proof.ReferenceDecoder
import proofs.«165260_j28217935135446_1_alg».proof.Proof.SummedEdges
import Idealize.ShloMosaic.Adequacy
import Idealize.ShloMosaic.Init

noncomputable section

namespace Cert.Proof

open Idealize.ShloMosaic Idealize.SL.Sem

/-- The kernel's program as printed runs and leaves its arguments as they were: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs end with `dv` and `dw` of the arguments: the kernel's by
    its 20 blocks (KernelDecoder), the reference's by its stages read at an index (ReferenceDecoder), the summed edge
    quantities one term on both sides (SummedEdges). -/
theorem algebraic : Cert.algebraic_KernelIdeal_ReferenceIdeal := by
  intro m ρ m' ρ' _ hagree
  refine ⟨fun c => Cert.KernelIdeal.Decoder.dvArr m c, fun c => Cert.KernelIdeal.Decoder.dwArr m c,
    Cert.KernelIdeal.Decoder.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, -, a4, a5, a6, a7, -, -, -, -, a12, a13, a14, a15⟩ := hagree c
    rw [Cert.ReferenceIdeal.Read.val_main_v38_eq, Cert.ReferenceIdeal.Decoder.dv_eq, Cert.SummedEdges.sums_f_eq,
      a0, a1, a2, a4, a5, a6, a7, a12, a13, a14, a15]
    exact (Cert.KernelIdeal.Decoder.dvArr_def m c).symm
  · obtain ⟨a0, a1, -, a3, -, -, -, -, a8, a9, a10, a11, -⟩ := hagree c
    rw [Cert.ReferenceIdeal.Read.val_main_v40_eq, Cert.ReferenceIdeal.Decoder.dw_eq, Cert.SummedEdges.sums_t_eq,
      a0, a1, a3, a8, a9, a10, a11]
    exact (Cert.KernelIdeal.Decoder.dwArr_def m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
